-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x16384x128 : Shape := ⟨3, ![16, 16384, 128]⟩
abbrev S16x128x16 : Shape := ⟨3, ![16, 128, 16]⟩
abbrev S_ : Shape := ⟨0, ![]⟩

class Facts : Prop where
  bcast_S_S16x16384x128 : S_.BroadcastsInDim S16x16384x128 (![] : Fin 0 → Fin S16x16384x128.rank)
  reducesTo_S16x16384x128_S_d0_1_2 : S16x16384x128.ReducesTo [0, 1, 2] S_
  h_S_ : 0 < S_.numel
  bcast_S_S16x128x16 : S_.BroadcastsInDim S16x128x16 (![] : Fin 0 → Fin S16x128x16.rank)
  reducesTo_S16x128x16_S_d0_1_2 : S16x128x16.ReducesTo [0, 1, 2] S_

variable [Facts]

def fn {F : FTy → Type} [FloatOps F] (main_arg0 : FVec F S16x16384x128 .f32) (main_arg1 : FVec F S16x128x16 .f32) : IVec S_ 1 :=
  let main_v0 : FVec F S16x16384x128 .f32 := Host.absf main_arg0
  let main_cst : FVec F S_ .f32 := constant S_ .f32 0x7F800000#32
  let main_v1 : FVec F S16x16384x128 .f32 := broadcastInDim S16x16384x128 ![] bcast_S_S16x16384x128 main_cst
  let main_v2 : IVec S16x16384x128 1 := cmpf .olt main_v0 main_v1
  let main_c : IVec S_ 1 := constantI S_ 1 1#1
  let main_v3 : IVec S_ 1 := (fun x v => Host.reduce IntOp.andi x v reducesTo_S16x16384x128_S_d0_1_2 h_S_) main_v2 main_c
  let main_v4 : FVec F S16x128x16 .f32 := Host.absf main_arg1
  let main_cst_0 : FVec F S_ .f32 := constant S_ .f32 0x7F800000#32
  let main_v5 : FVec F S16x128x16 .f32 := broadcastInDim S16x128x16 ![] bcast_S_S16x128x16 main_cst_0
  let main_v6 : IVec S16x128x16 1 := cmpf .olt main_v4 main_v5
  let main_c_1 : IVec S_ 1 := constantI S_ 1 1#1
  let main_v7 : IVec S_ 1 := (fun x v => Host.reduce IntOp.andi x v reducesTo_S16x128x16_S_d0_1_2 h_S_) main_v6 main_c_1
  let main_v8 : IVec S_ 1 := andi main_v3 main_v7
  main_v8
-- ==== Kernel.lean ====
abbrev S16x16384x128 : Shape := ⟨3, ![16, 16384, 128]⟩
abbrev S16x128x16 : Shape := ⟨3, ![16, 128, 16]⟩
abbrev S16x16384x16 : Shape := ⟨3, ![16, 16384, 16]⟩
abbrev S1x2048x128 : Shape := ⟨3, ![1, 2048, 128]⟩
abbrev S1x128x16 : Shape := ⟨3, ![1, 128, 16]⟩
abbrev S1x2048x16 : Shape := ⟨3, ![1, 2048, 16]⟩
abbrev S2048x128 : Shape := ⟨2, ![2048, 128]⟩
abbrev S128x16 : Shape := ⟨2, ![128, 16]⟩
abbrev S2048x16 : Shape := ⟨2, ![2048, 16]⟩

abbrev nBuf : Space → Nat
  | .hbm => 3
  | .vmem => 6
  | .smem => 0
  | _ => 0

abbrev bufTy : (tb : Table) → Fin (tcTables nBuf tb) → BufTy
  | .hbm, ⟨0, _⟩ => ⟨S16x16384x128, .f32⟩
  | .hbm, ⟨1, _⟩ => ⟨S16x128x16, .f32⟩
  | .hbm, ⟨2, _⟩ => ⟨S16x16384x16, .f32⟩
  | .local _ .vmem, ⟨0, _⟩ => ⟨S1x2048x128, .f32⟩
  | .local _ .vmem, ⟨1, _⟩ => ⟨S1x2048x128, .f32⟩
  | .local _ .vmem, ⟨2, _⟩ => ⟨S1x128x16, .f32⟩
  | .local _ .vmem, ⟨3, _⟩ => ⟨S1x128x16, .f32⟩
  | .local _ .vmem, ⟨4, _⟩ => ⟨S1x2048x16, .f32⟩
  | .local _ .vmem, ⟨5, _⟩ => ⟨S1x2048x16, .f32⟩
  | _, _ => ⟨S16x16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  inb_S1x128x16_S1x128x16_0_0_0 : ∀ a, (![0, 0, 0] : Fin 3 → Nat) a + S1x128x16.size a ≤ S1x128x16.size a
  h_S1x128x16 : 0 < S1x128x16.numel
  shapeCasts_S1x128x16_S128x16 : S1x128x16.ShapeCasts S128x16
  inb_S1x2048x16_S1x2048x16_0_0_0 : ∀ a, (![0, 0, 0] : Fin 3 → Nat) a + S1x2048x16.size a ≤ S1x2048x16.size a
  h_S1x2048x16 : 0 < S1x2048x16.numel
  shapeCasts_S1x2048x16_S2048x16 : S1x2048x16.ShapeCasts S2048x16
  shapeCasts_S2048x16_S1x2048x16 : S2048x16.ShapeCasts S1x2048x16
  dot_S2048x128_S128x16_S2048x16_1_0_0_1_n_n_wf : DotDims.WF S2048x128 S128x16 S2048x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x128.size a ≤ S16x16384x128.size a
  hwx0_0 : ∀ i : grid0.Coords, EltTy.bits .f32 = 32 ∨ (Rect.block (s := S16x16384x128) S1x2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x16.size a ≤ S16x128x16.size a
  hwx0_1 : ∀ i : grid0.Coords, EltTy.bits .f32 = 32 ∨ (Rect.block (s := S16x128x16) S1x128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x16.size a ≤ S16x16384x16.size a
  hwx0_2 : ∀ i : grid0.Coords, EltTy.bits .f32 = 32 ∨ (Rect.block (s := S16x16384x16) S1x2048x16.size (cc0_transform_2 i) (hinb0_2 i)).WholeWords (EltTy.packing .f32)

variable [Facts₀]

def dot_S2048x128_S128x16_S2048x16_1_0_0_1_n_n : DotDims S2048x128 S128x16 S2048x16 where
  lhsContracting := [1]
  rhsContracting := [0]
  lhsNonContracting := [0]
  rhsNonContracting := [1]
  lhsBatch := []
  rhsBatch := []
  wf := dot_S2048x128_S128x16_S2048x16_1_0_0_1_n_n_wf

abbrev win0_0 : Pipeline.Window sig grid0 :=
  Pipeline.Window.ofSpec (Memref.whole main_arg0) S1x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x16384x128 : Shape := ⟨3, ![16, 16384, 128]⟩
abbrev S16x128x16 : Shape := ⟨3, ![16, 128, 16]⟩
abbrev S16x16384x16 : Shape := ⟨3, ![16, 16384, 16]⟩

abbrev nBuf : Space → Nat
  | .hbm => 3
  | .vmem => 0
  | .smem => 0
  | _ => 0

abbrev bufTy : (tb : Table) → Fin (tcTables nBuf tb) → BufTy
  | .hbm, ⟨0, _⟩ => ⟨S16x16384x128, .f32⟩
  | .hbm, ⟨1, _⟩ => ⟨S16x128x16, .f32⟩
  | .hbm, ⟨2, _⟩ => ⟨S16x16384x16, .f32⟩
  | _, _ => ⟨S16x16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S16x16384x128_S16x128x16_S16x16384x16_2_1_1_2_0_0_wf : DotDims.WF S16x16384x128 S16x128x16 S16x16384x16 [2] [1] [1] [2] [0] [0]

variable [Facts₀]

def dot_S16x16384x128_S16x128x16_S16x16384x16_2_1_1_2_0_0 : DotDims S16x16384x128 S16x128x16 S16x16384x16 where
  lhsContracting := [2]
  rhsContracting := [1]
  lhsNonContracting := [1]
  rhsNonContracting := [2]
  lhsBatch := [0]
  rhsBatch := [0]
  wf := dot_S16x16384x128_S16x128x16_S16x16384x16_2_1_1_2_0_0_wf

class Facts : Prop extends Facts₀ where

variable [Facts]
-- ==== Proof.BlockProduct.lean ====
/-
  One grid point's block of the kernel, read at an index. The body loads a [1, 2048, 128] block of activations and
  the genome's [1, 128, 16] weight, drops the leading unit axis of each, multiplies the two matrices into a zero
  accumulator and stores the product with the unit axis put back. At the extended reals the product's entry (r, e)
  is the plain sum over the feature f of row r's entry f times the weight's entry (f, e): no rounding and no chunk
  order is left in it, and the zero accumulator adds nothing.
-/
import proofs.«173661_g1614907703996_cont_week2b_559_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.BlockProduct

open Cert.KernelIdeal Cert.KernelIdeal.Gen Idealize.ShloMosaic Idealize.ShloMosaic.ValueIdx

/-! ## The matrix product's operand indices, axis by axis

The product contracts the left operand's axis 1 with the right operand's axis 0; the left operand's axis 0 and the
right operand's axis 1 are the result's two axes. -/

theorem lhs_row (i : S2048x16.Idx) (q : dot_S2048x128_S128x16_S2048x16_1_0_0_1_n_n.contr.Idx) :
    (dot_S2048x128_S128x16_S2048x16_1_0_0_1_n_n.lhsIdx i q 0).val = (i 0).val := by
  unfold DotDims.lhsIdx
  rw [dif_neg (show ¬(0 : Fin S2048x128.rank) ∈ dot_S2048x128_S128x16_S2048x16_1_0_0_1_n_n.lhsBatch by decide), dif_pos (show (0 : Fin S2048x128.rank) ∈ dot_S2048x128_S128x16_S2048x16_1_0_0_1_n_n.lhsNonContracting by decide)]
  rfl
theorem lhs_feature (i : S2048x16.Idx) (q : dot_S2048x128_S128x16_S2048x16_1_0_0_1_n_n.contr.Idx) :
    (dot_S2048x128_S128x16_S2048x16_1_0_0_1_n_n.lhsIdx i q 1).val = (q ⟨0, by decide⟩).val :=
  dot_S2048x128_S128x16_S2048x16_1_0_0_1_n_n.lhsIdx_val_of_single rfl i q
theorem rhs_feature (i : S2048x16.Idx) (q : dot_S2048x128_S128x16_S2048x16_1_0_0_1_n_n.contr.Idx) :
    (dot_S2048x128_S128x16_S2048x16_1_0_0_1_n_n.rhsIdx i q 0).val = (q ⟨0, by decide⟩).val :=
  dot_S2048x128_S128x16_S2048x16_1_0_0_1_n_n.rhsIdx_val_of_single rfl i q
theorem rhs_col (i : S2048x16.Idx) (q : dot_S2048x128_S128x16_S2048x16_1_0_0_1_n_n.contr.Idx) :
    (dot_S2048x128_S128x16_S2048x16_1_0_0_1_n_n.rhsIdx i q 1).val = (i 1).val := by
  unfold DotDims.rhsIdx
  rw [dif_neg (show ¬(1 : Fin S128x16.rank) ∈ dot_S2048x128_S128x16_S2048x16_1_0_0_1_n_n.rhsBatch by decide), dif_pos (show (1 : Fin S128x16.rank) ∈ dot_S2048x128_S128x16_S2048x16_1_0_0_1_n_n.rhsNonContracting by decide)]
  rfl

/-! ## The product of two matrices into the zero accumulator, at an entry -/

/-- Entry (r, e) of the [2048, 128] × [128, 16] product into zero: the sum over f of a (r, f) · b (f, e). -/
theorem product_apply (a : FVec Ideal S2048x128 .f32) (b : FVec Ideal S128x16 .f32) (r : Fin 2048) (e : Fin 16) :
    matmul dot_S2048x128_S128x16_S2048x16_1_0_0_1_n_n none a b (constant (F := Ideal) S2048x16 .f32 0x00000000#32) (ix2 r e)
      = ∑ f : Fin 128, a (ix2 r f) * b (ix2 f e) := by
  simp only [matmul]
  rw [Ideal.matmul_constant_zero_apply, ← Equiv.sum_comp (contrEquiv1 dot_S2048x128_S128x16_S2048x16_1_0_0_1_n_n 128 rfl rfl).symm]
  refine Finset.sum_congr rfl fun f _ => ?_
  have hf := contrEquiv1_symm_val dot_S2048x128_S128x16_S2048x16_1_0_0_1_n_n 128 rfl rfl f
  have el : dot_S2048x128_S128x16_S2048x16_1_0_0_1_n_n.lhsIdx (ix2 r e) ((contrEquiv1 dot_S2048x128_S128x16_S2048x16_1_0_0_1_n_n 128 rfl rfl).symm f) = ix2 r f := funext fun x => Fin.ext (by
    match x with
    | ⟨0, _⟩ => exact lhs_row _ _
    | ⟨1, _⟩ => exact (lhs_feature _ _).trans hf)
  have er : dot_S2048x128_S128x16_S2048x16_1_0_0_1_n_n.rhsIdx (ix2 r e) ((contrEquiv1 dot_S2048x128_S128x16_S2048x16_1_0_0_1_n_n 128 rfl rfl).symm f) = ix2 f e := funext fun x => Fin.ext (by
    match x with
    | ⟨0, _⟩ => exact (rhs_feature _ _).trans hf
    | ⟨1, _⟩ => exact rhs_col _ _)
  rw [el, er]

/-! ## The body's stored value at an index of the block -/

/-- The stored [1, 2048, 16] block at (0, r, e): the sum over f of the activations' block at (0, r, f) times the
    weight's block at (0, f, e). -/
theorem block_apply (x0 : Vec Ideal S1x2048x128 .f32) (x1 : Vec Ideal S1x128x16 .f32) (z : Fin 1) (r : Fin 2048) (e : Fin 16) :
    k0_pay1 (F := Ideal) x0 x1 (ix3 z r e) = ∑ f : Fin 128, x0 (ix3 0 r f) * x1 (ix3 0 f e) := by
  unfold k0_pay1
  rw [shapeCast_addUnit_apply ![2048, 16]]
  have hj : (fun a : Fin 2 => (ix3 z r e : S1x2048x16.Idx) a.succ) = ix2 r e :=
    funext fun a => by match a with | ⟨0, _⟩ => rfl | ⟨1, _⟩ => rfl
  rw [hj, product_apply]
  refine Finset.sum_congr rfl fun f _ => ?_
  rw [shapeCast_dropUnit_apply ![2048, 128], shapeCast_dropUnit_apply ![128, 16]]
  have h0 : (Fin.cons ⟨0, Nat.one_pos⟩ (ix2 r f : S2048x128.Idx) : S1x2048x128.Idx) = ix3 0 r f :=
    funext fun a => by match a with | ⟨0, _⟩ => rfl | ⟨1, _⟩ => rfl | ⟨2, _⟩ => rfl
  have h1 : (Fin.cons ⟨0, Nat.one_pos⟩ (ix2 f e : S128x16.Idx) : S1x128x16.Idx) = ix3 0 f e :=
    funext fun a => by match a with | ⟨0, _⟩ => rfl | ⟨1, _⟩ => rfl | ⟨2, _⟩ => rfl
  rw [h0, h1]

end Cert.KernelIdeal.BlockProduct

end
-- ==== Proof.Embedding.lean ====
/-
  The per-genome linear embedding as ONE function of the two argument arrays, index by index, on the
  extended reals: for a genome g, a batch row b and an embedding coordinate e,

      embed x w (g, b, e) = Σ_f  x (g, b, f) · w (g, f, e),    f over the 128 features.

  Both programs compute this array: the kernel one block of 2048 batch rows at a time (each block a
  matrix product of that genome's rows with that genome's weight), the reference as one batched
  contraction over the feature axis.
-/
import Idealize.ShloMosaic.PureOps.Ideal
import Idealize.ShloMosaic.Lib.ValueIdx

noncomputable section

open scoped BigOperators

namespace Cert.Embedding

open Idealize.ShloMosaic Idealize.ShloMosaic.ValueIdx

/-- The embedding of activations `x : [16, 16384, 128]` by per-genome weights `w : [16, 128, 16]`: at (g, b, e) the
    sum over the feature f of x (g, b, f) · w (g, f, e). -/
def embed (x : FVec Ideal ⟨3, ![16, 16384, 128]⟩ .f32) (w : FVec Ideal ⟨3, ![16, 128, 16]⟩ .f32) :
    FVec Ideal ⟨3, ![16, 16384, 16]⟩ .f32 :=
  fun i => ∑ f : Fin 128, x (ix3 (i 0) (i 1) f) * w (ix3 (i 0) f (i 2))

theorem embed_apply (x : FVec Ideal ⟨3, ![16, 16384, 128]⟩ .f32) (w : FVec Ideal ⟨3, ![16, 128, 16]⟩ .f32)
    (i : (⟨3, ![16, 16384, 16]⟩ : Shape).Idx) :
    embed x w i = ∑ f : Fin 128, x (ix3 (i 0) (i 1) f) * w (ix3 (i 0) f (i 2)) := rfl

end Cert.Embedding

end
-- ==== Proof.WholeArray.lean ====
/-
  From blocks to the whole array. The grid has 16 × 8 points; point (g, i) fetches rows [2048·i, 2048·i + 2048) of
  genome g's activations and genome g's whole weight, and writes back the same rows of genome g's result. Each
  written block is the embedding restricted to those rows (the block's entry (0, r, e) is the sum over the features of
  the activations at (g, 2048·i + r, ·) times the weights at (g, ·, e)), and the 128 blocks tile the result array
  (row b of genome g lies in the block of point (g, b / 2048)). So the array after the run IS the embedding of the two
  argument arrays.
-/
import proofs.«173661_g1614907703996_cont_week2b_559_2_alg».proof.Proof.Gen.KernelIdeal.Value
import proofs.«173661_g1614907703996_cont_week2b_559_2_alg».proof.Proof.BlockProduct
import proofs.«173661_g1614907703996_cont_week2b_559_2_alg».proof.Proof.Embedding

noncomputable section

open scoped BigOperators

namespace Cert.KernelIdeal.WholeArray

open Cert.KernelIdeal Cert.KernelIdeal.Gen Idealize.ShloMosaic Idealize.ShloMosaic.TcCoe Idealize.SL.Sem
open Idealize.ShloMosaic.Pipeline (Dat)
open Idealize.ShloMosaic.ValueIdx Cert.Embedding Cert.KernelIdeal.BlockProduct

variable (m : (ℓ : Loc nD τ sig) → Buf (Elt Ideal) ℓ) (ρ : Dev nD → PrngReg)

/-- The activations and the weights as the region finds them, at their literal shapes. -/
abbrev acts (c : Dev nD) : FVec Ideal S16x16384x128 .f32 := V m c main_arg0
abbrev wts (c : Dev nD) : FVec Ideal S16x128x16 .f32 := V m c main_arg1

theorem zero_offsets : (![0, 0, 0] : Fin 3 → Nat) = fun _ => 0 := funext fun a => by fin_cases a <;> rfl

/-- The three index maps over the grid: the activations' block moves with the result's block on the genome and row
    axes, the weight's block with it on the genome axis; every other block coordinate is zero; the result's block
    coordinates stay below 16 and 8. -/
theorem index_facts : ∀ t : Fin cfg0.N,
    win0_0.index t (0 : Fin 3) = win0_2.index t (0 : Fin 3)
    ∧ win0_0.index t (1 : Fin 3) = win0_2.index t (1 : Fin 3)
    ∧ win0_0.index t (2 : Fin 3) = 0
    ∧ win0_1.index t (0 : Fin 3) = win0_2.index t (0 : Fin 3)
    ∧ win0_1.index t (1 : Fin 3) = 0
    ∧ win0_1.index t (2 : Fin 3) = 0
    ∧ win0_2.index t (2 : Fin 3) = 0
    ∧ win0_2.index t (0 : Fin 3) ≤ 15
    ∧ win0_2.index t (1 : Fin 3) ≤ 7 :=
  (by decide +kernel : ∀ t : Fin grid0.N, _)

/-- Every (genome, row block) pair is some grid point's. -/
theorem index_onto : ∀ (g : Fin 16) (q : Fin 8), ∃ t : Fin cfg0.N, win0_2.index t = ![g.val, q.val, 0] :=
  (by decide +kernel : ∀ (g : Fin 16) (q : Fin 8), ∃ t : Fin grid0.N, win0_2.index t = ![g.val, q.val, 0])

/-- WHAT POINT `t` WRITES BACK is block `t` of the embedding of the argument arrays. -/
theorem flushed_eq (c : Dev nD) (t : Fin cfg0.N) :
    (dats m 0 c).flushed 2 t = ((cfg0.win 2).blk t).view.read (Elt Ideal) (embed (V m c main_arg0) (V m c main_arg1)) := by
  rw [Value.flushed2]
  unfold out0_2
  rw [View.canon_unit_zero zero_offsets]
  simp only [View.ld_unit_zero (S := S1x2048x128) zero_offsets, View.ld_unit_zero (S := S1x128x16) zero_offsets]
  obtain ⟨e00, e01, e02, e10, e11, e12, e22, -, -⟩ := index_facts t
  funext j
  obtain ⟨z, r, e, rfl⟩ : ∃ (z : Fin 1) (r : Fin 2048) (e : Fin 16), j = ix3 z r e := ⟨j 0, j 1, j 2, eq_ix3 j⟩
  show k0_pay1 (F := Ideal) (iblk m c 0 t) (iblk m c 1 t) (ix3 z r e)
    = embed (V m c main_arg0) (V m c main_arg1) (((cfg0.win 2).blk t).view.emb (ix3 z r e))
  refine (block_apply (iblk m c 0 t) (iblk m c 1 t) z r e).trans ?_
  rw [embed_apply]
  refine Finset.sum_congr rfl fun f _ => ?_
  have hz : z.val = 0 := by have := z.isLt; omega
  have h0 : ((cfg0.win 0).blk t).view.emb (ix3 0 r f)
      = ix3 ((((cfg0.win 2).blk t).view.emb (ix3 z r e)) 0) ((((cfg0.win 2).blk t).view.emb (ix3 z r e)) 1) f := by
    funext a; apply Fin.ext
    match a with
    | ⟨0, _⟩ => show win0_0.index t (0 : Fin 3) * 1 + 1 * 0 = win0_2.index t (0 : Fin 3) * 1 + 1 * z.val; omega
    | ⟨1, _⟩ => show win0_0.index t (1 : Fin 3) * 2048 + 1 * r.val = win0_2.index t (1 : Fin 3) * 2048 + 1 * r.val; omega
    | ⟨2, _⟩ => show win0_0.index t (2 : Fin 3) * 128 + 1 * f.val = f.val; omega
  have h1 : ((cfg0.win 1).blk t).view.emb (ix3 0 f e)
      = ix3 ((((cfg0.win 2).blk t).view.emb (ix3 z r e)) 0) f ((((cfg0.win 2).blk t).view.emb (ix3 z r e)) 2) := by
    funext a; apply Fin.ext
    match a with
    | ⟨0, _⟩ => show win0_1.index t (0 : Fin 3) * 1 + 1 * 0 = win0_2.index t (0 : Fin 3) * 1 + 1 * z.val; omega
    | ⟨1, _⟩ => show win0_1.index t (1 : Fin 3) * 128 + 1 * f.val = f.val; omega
    | ⟨2, _⟩ => show win0_1.index t (2 : Fin 3) * 16 + 1 * e.val = win0_2.index t (2 : Fin 3) * 16 + 1 * e.val; omega
  show acts m c (((cfg0.win 0).blk t).view.emb (ix3 0 r f)) * wts m c (((cfg0.win 1).blk t).view.emb (ix3 0 f e)) = _
  rw [h0, h1]
  rfl

/-- An index of the result array is in point `t`'s block iff each coordinate is in the block's range on its axis. -/
theorem mem_blk (t : Fin cfg0.N) (i : S16x16384x16.Idx) :
    i ∈ ((cfg0.win 2).blk t).view.set ↔ ∀ a : Fin 3, win0_2.index t a * S1x2048x16.size a ≤ (i a).val ∧ (i a).val < win0_2.index t a * S1x2048x16.size a + S1x2048x16.size a := by
  show i ∈ ((View.whole main_v0).slice (win0_2.rect t)).set ↔ _
  rw [View.set_slice_whole, Rect.mem_set_unit]
  exact Iff.rfl

/-- The 128 blocks tile the result array: (g, b, e) lies in the block of the point with genome g and row block b / 2048. -/
theorem cover (i : S16x16384x16.Idx) : ∃ t : Fin cfg0.N, (cfg0.win 2).flush t = true ∧ i ∈ ((cfg0.win 2).blk t).view.set := by
  have hi0 : (i 0).val < 16 := (i 0).isLt
  have hi1 : (i 1).val < 16384 := (i 1).isLt
  have hi2 : (i 2).val < 16 := (i 2).isLt
  obtain ⟨t, ht⟩ := index_onto ⟨(i 0).val, hi0⟩ ⟨(i 1).val / 2048, by omega⟩
  have q0 : win0_2.index t (0 : Fin 3) = (i 0).val := congrFun ht 0
  have q1 : win0_2.index t (1 : Fin 3) = (i 1).val / 2048 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 2048 ≤ (i 1).val ∧ (i 1).val < win0_2.index t (1 : Fin 3) * 2048 + 2048; omega
  | ⟨2, _⟩ => show win0_2.index t (2 : Fin 3) * 16 ≤ (i 2).val ∧ (i 2).val < win0_2.index t (2 : Fin 3) * 16 + 16; omega

/-- THE RESULT ARRAY after the run is the embedding of the argument arrays as launched. -/
theorem final (c : Dev nD) :
    (dats m 0 c).arrAt 2 cfg0.N = embed (m ((c : Thread nD τ).loc main_arg0)) (m ((c : Thread nD τ).loc main_arg1)) :=
  (dats m 0 c).arrAt_eq_of_cover 2 (embed (V m c main_arg0) (V m c main_arg1)) (fun t _ => flushed_eq m c t) cover

/-- The kernel's run, read: the result at the embedding of the arguments, the arguments unchanged. -/
theorem run : θ_run defs (onTc (τ := τ) (main (F := Ideal))) ⟨m, fun _ => 0, ρ⟩ fun r => ∀ c : Dev nD,
      r.2.mem ((c : Thread nD τ).loc main_v0) = embed (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.WholeArray

end
-- ==== Proof.ReferenceEmbedding.lean ====
/-
  The reference's result is the embedding. Its one operation is a batched contraction: the genome axis is a batch
  axis of both operands, the feature axis (axis 2 of the activations, axis 1 of the weights) is contracted. Read at
  an index (g, b, e) it is the sum over the feature f of the activations at (g, b, f) times the weights at (g, f, e).
-/
import proofs.«173661_g1614907703996_cont_week2b_559_2_alg».proof.Proof.Gen.ReferenceIdeal.Read
import proofs.«173661_g1614907703996_cont_week2b_559_2_alg».proof.Proof.Embedding

noncomputable section

open scoped BigOperators

namespace Cert.ReferenceIdeal.RefValue

open Cert.ReferenceIdeal Cert.ReferenceIdeal.Read Idealize.ShloMosaic Idealize.ShloMosaic.ValueIdx Cert.Embedding

/-- The activations' index the contraction reads at output index i and feature f is (i 0, i 1, f). -/
theorem lidx_eq (i : S16x16384x16.Idx) (f : Fin 128) : lidx_main_v0 i f = ix3 (i 0) (i 1) f :=
  funext fun a => by match a with | ⟨0, _⟩ => rfl | ⟨1, _⟩ => rfl | ⟨2, _⟩ => rfl

/-- The weights' index it reads there is (i 0, f, i 2). -/
theorem ridx_eq (i : S16x16384x16.Idx) (f : Fin 128) : ridx_main_v0 i f = ix3 (i 0) f (i 2) :=
  funext fun a => by match a with | ⟨0, _⟩ => rfl | ⟨1, _⟩ => rfl | ⟨2, _⟩ => rfl

/-- The reference's batched contraction of the two argument arrays is their embedding. -/
theorem result_eq (x : FVec Ideal S16x16384x128 .f32) (w : FVec Ideal S16x128x16 .f32) :
    Host.dotGeneral dot_S16x16384x128_S16x128x16_S16x16384x16_2_1_1_2_0_0 none x w = embed x w := by
  rw [val_main_v0_eq]
  funext i
  rw [val_main_v0_apply, embed_apply]
  refine Finset.sum_congr rfl fun f _ => ?_
  rw [lidx_eq, ridx_eq]
  rfl

end Cert.ReferenceIdeal.RefValue

end
-- ==== Proof.lean ====
/- The kernel and the reference compute the same array over the extended reals: the per-genome linear embedding
   out (g, b, e) = Σ_f tensor (g, b, f) · W (g, f, e) of activations [16, 16384, 128] by weights [16, 128, 16].
   The kernel walks a 16 × 8 grid; at point (g, i) it multiplies rows [2048·i, 2048·i + 2048) of genome g's activations
   by genome g's weight matrix into a zero accumulator and writes the product to the same rows of genome g's result;
   the reference contracts the feature axis of the whole arrays at once with the genome axis as a batch axis. At the
   extended reals a matrix product's entry is the plain sum of the 128 products (no rounding, no order), the zero
   accumulator adds nothing, and the 128 written blocks tile the result, so both results are that one sum at every
   index. No finiteness of the inputs is used: the two sides are the same sum of the same products, term by term.
   The idealization rewrote nothing, so there is nothing to preserve. -/
import proofs.«173661_g1614907703996_cont_week2b_559_2_alg».proof.Defs
import proofs.«173661_g1614907703996_cont_week2b_559_2_alg».proof.Proof.Gen.Kernel
import proofs.«173661_g1614907703996_cont_week2b_559_2_alg».proof.Proof.Gen.Kernel.Skeleton
import proofs.«173661_g1614907703996_cont_week2b_559_2_alg».proof.Proof.Gen.Kernel.Launch
import proofs.«173661_g1614907703996_cont_week2b_559_2_alg».proof.Proof.Gen.Kernel.Points
import proofs.«173661_g1614907703996_cont_week2b_559_2_alg».proof.Proof.Gen.Kernel.Frame
import proofs.«173661_g1614907703996_cont_week2b_559_2_alg».proof.Proof.Gen.KernelIdeal
import proofs.«173661_g1614907703996_cont_week2b_559_2_alg».proof.Proof.Gen.KernelIdeal.Skeleton
import proofs.«173661_g1614907703996_cont_week2b_559_2_alg».proof.Proof.Gen.KernelIdeal.Launch
import proofs.«173661_g1614907703996_cont_week2b_559_2_alg».proof.Proof.Gen.KernelIdeal.Points
import proofs.«173661_g1614907703996_cont_week2b_559_2_alg».proof.Proof.Gen.KernelIdeal.Frame
import proofs.«173661_g1614907703996_cont_week2b_559_2_alg».proof.Proof.Gen.ReferenceIdeal
import proofs.«173661_g1614907703996_cont_week2b_559_2_alg».proof.Proof.Gen.Pre_finite_inputs
import proofs.«173661_g1614907703996_cont_week2b_559_2_alg».proof.Proof.Gen.KernelIdeal.Value
import proofs.«173661_g1614907703996_cont_week2b_559_2_alg».proof.Proof.Gen.ReferenceIdeal.Run
import proofs.«173661_g1614907703996_cont_week2b_559_2_alg».proof.Proof.Gen.ReferenceIdeal.Read
import proofs.«173661_g1614907703996_cont_week2b_559_2_alg».proof.Proof.WholeArray
import proofs.«173661_g1614907703996_cont_week2b_559_2_alg».proof.Proof.ReferenceEmbedding
import Idealize.ShloMosaic.Adequacy
import Idealize.ShloMosaic.Init

noncomputable section

namespace Cert.Proof

open Idealize.ShloMosaic Idealize.SL.Sem Cert.Kernel

/-- The kernel as printed runs and leaves its arguments unchanged. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the two arguments, the kernel's result array ends at the embedding of its arguments
    (the blocks tile it) and the reference's at the batched contraction of the same arrays, which is the embedding. -/
theorem algebraic : Cert.algebraic_KernelIdeal_ReferenceIdeal := by
  intro m ρ m' ρ' _ hagree
  refine ⟨_, Cert.KernelIdeal.WholeArray.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.RefValue.result_eq _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
